-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x4096x5 : Shape := ⟨3, ![4096, 4096, 5]⟩
abbrev S4096 : Shape := ⟨1, ![4096]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x4096x5 : S_.BroadcastsInDim S4096x4096x5 (![] : Fin 0 → Fin S4096x4096x5.rank)
  reducesTo_S4096x4096x5_S_d0_1_2 : S4096x4096x5.ReducesTo [0, 1, 2] S_

variable [Facts]

def fn {F : FTy → Type} [FloatOps F] (main_arg0 : FVec F S4096x4096x2 .f32) (main_arg1 : FVec F S4096x4096x5 .f32) (main_arg2 : IVec S4096 32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x4096x5 .f32 := Host.absf main_arg1
  let main_cst_0 : FVec F S_ .f32 := constant S_ .f32 0x7F800000#32
  let main_v5 : FVec F S4096x4096x5 .f32 := broadcastInDim S4096x4096x5 ![] bcast_S_S4096x4096x5 main_cst_0
  let main_v6 : IVec S4096x4096x5 1 := cmpf .olt main_v4 main_v5
  let main_c_1 : IVec S_ 1 := constantI S_ 1 1#1
  let main_v7 : IVec S_ 1 := (fun x v => Host.reduce IntOp.andi x v reducesTo_S4096x4096x5_S_d0_1_2 h_S_) main_v6 main_c_1
  let main_v8 : IVec S_ 1 := andi main_v3 main_v7
  main_v8
-- ==== Kernel.lean ====
abbrev S4096x4096x2 : Shape := ⟨3, ![4096, 4096, 2]⟩
abbrev S4096x4096x5 : Shape := ⟨3, ![4096, 4096, 5]⟩
abbrev S4096 : Shape := ⟨1, ![4096]⟩
abbrev S2x4096x4096 : Shape := ⟨3, ![2, 4096, 4096]⟩
abbrev S5x4096x4096 : Shape := ⟨3, ![5, 4096, 4096]⟩
abbrev S1x4096 : Shape := ⟨2, ![1, 4096]⟩
abbrev S2x512x512 : Shape := ⟨3, ![2, 512, 512]⟩
abbrev S5x512x512 : Shape := ⟨3, ![5, 512, 512]⟩
abbrev S1x512 : Shape := ⟨2, ![1, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x5, .f32⟩
  | .hbm, ⟨2, _⟩ => ⟨S4096, .i32⟩
  | .hbm, ⟨3, _⟩ => ⟨S2x4096x4096, .f32⟩
  | .hbm, ⟨4, _⟩ => ⟨S5x4096x4096, .f32⟩
  | .hbm, ⟨5, _⟩ => ⟨S1x4096, .f32⟩
  | .hbm, ⟨6, _⟩ => ⟨S4096, .f32⟩
  | .local _ .vmem, ⟨0, _⟩ => ⟨S2x512x512, .f32⟩
  | .local _ .vmem, ⟨1, _⟩ => ⟨S2x512x512, .f32⟩
  | .local _ .vmem, ⟨2, _⟩ => ⟨S5x512x512, .f32⟩
  | .local _ .vmem, ⟨3, _⟩ => ⟨S5x512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v64 : BitVec 1 := Scalar.cmpi .eq arg1 c7_i32
  let v65 : BitVec 32 := Scalar.extui v64
  let c0_i32_18 : BitVec 32 := 0#32
  let v66 : BitVec 1 := Scalar.cmpi .ne v65 c0_i32_18
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4096x4096x2_S2x4096x4096_2_0_1 : S4096x4096x2.Transposes [2, 0, 1] S2x4096x4096
  transposes_S4096x4096x5_S5x4096x4096_2_0_1 : S4096x4096x5.Transposes [2, 0, 1] S5x4096x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  inb_S5x512x512_S5x512x512_0_0_0 : ∀ a, (![0, 0, 0] : Fin 3 → Nat) a + S5x512x512.size a ≤ S5x512x512.size a
  h_S5x512x512 : 0 < S5x512x512.numel
  shapeCasts_S5x512x512_S5x512x512 : S5x512x512.ShapeCasts S5x512x512
  slices_S5x512x512_o0_0_0_S1x512x512 : S5x512x512.Slices ![0, 0, 0] S1x512x512
  shapeCasts_S1x512x512_S512x512 : S1x512x512.ShapeCasts S512x512
  slices_S5x512x512_o1_0_0_S1x512x512 : S5x512x512.Slices ![1, 0, 0] S1x512x512
  slices_S5x512x512_o2_0_0_S1x512x512 : S5x512x512.Slices ![2, 0, 0] S1x512x512
  slices_S5x512x512_o3_0_0_S1x512x512 : S5x512x512.Slices ![3, 0, 0] S1x512x512
  slices_S5x512x512_o4_0_0_S1x512x512 : S5x512x512.Slices ![4, 0, 0] S1x512x512
  slices_S2x512x512_o0_0_0_S1x512x512 : S2x512x512.Slices ![0, 0, 0] S1x512x512
  slices_S2x512x512_o1_0_0_S1x512x512 : S2x512x512.Slices ![1, 0, 0] S1x512x512
  shapeCasts_S1x4096_S4096 : S1x4096.ShapeCasts S4096
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S2x4096x4096.size a
  hwx0_0 : ∀ i : grid0.Coords, EltTy.bits .f32 = 32 ∨ (Rect.block (s := S2x4096x4096) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x512x512.size a ≤ S5x4096x4096.size a
  hwx0_1 : ∀ i : grid0.Coords, EltTy.bits .f32 = 32 ∨ (Rect.block (s := S5x4096x4096) S5x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)

variable [Facts₀]

def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096x2 : Shape := ⟨3, ![4096, 4096, 2]⟩
abbrev S4096x4096x5 : Shape := ⟨3, ![4096, 4096, 5]⟩
abbrev S4096 : Shape := ⟨1, ![4096]⟩
abbrev S4096x4096x1 : Shape := ⟨3, ![4096, 4096, 1]⟩
abbrev S4096x4096 : Shape := ⟨2, ![4096, 4096]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x5, .f32⟩
  | .hbm, ⟨2, _⟩ => ⟨S4096, .i32⟩
  | .hbm, ⟨3, _⟩ => ⟨S4096x4096x1, .f32⟩
  | .hbm, ⟨4, _⟩ => ⟨S4096x4096, .f32⟩
  | .hbm, ⟨5, _⟩ => ⟨S4096x4096x1, .f32⟩
  | .hbm, ⟨6, _⟩ => ⟨S4096x4096, .f32⟩
  | .hbm, ⟨7, _⟩ => ⟨S4096x4096x1, .f32⟩
  | .hbm, ⟨8, _⟩ => ⟨S4096x4096, .f32⟩
  | .hbm, ⟨9, _⟩ => ⟨S4096x4096, .f32⟩
  | .hbm, ⟨10, _⟩ => ⟨S4096x4096x1, .f32⟩
  | .hbm, ⟨11, _⟩ => ⟨S4096x4096, .f32⟩
  | .hbm, ⟨12, _⟩ => ⟨S4096x4096, .f32⟩
  | .hbm, ⟨13, _⟩ => ⟨S4096x4096x1, .f32⟩
  | .hbm, ⟨14, _⟩ => ⟨S4096x4096, .f32⟩
  | .hbm, ⟨15, _⟩ => ⟨S4096x4096, .f32⟩
  | .hbm, ⟨16, _⟩ => ⟨S4096x4096x1, .f32⟩
  | .hbm, ⟨17, _⟩ => ⟨S4096x4096, .f32⟩
  | .hbm, ⟨18, _⟩ => ⟨S4096x4096, .f32⟩
  | .hbm, ⟨19, _⟩ => ⟨S4096x4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩

abbrev nD : Nat := 1
abbrev τ : Topo := Topo.v7x

variable {F : FTy → Type} [FloatOps F]

class Facts₀ : Prop where
  slices_S4096x4096x5_S4096x4096x1_0_0_0 : S4096x4096x5.Slices ![0, 0, 0] S4096x4096x1
  shapeCasts_S4096x4096x1_S4096x4096 : S4096x4096x1.ShapeCasts S4096x4096
  slices_S4096x4096x5_S4096x4096x1_0_0_1 : S4096x4096x5.Slices ![0, 0, 1] S4096x4096x1
  slices_S4096x4096x5_S4096x4096x1_0_0_2 : S4096x4096x5.Slices ![0, 0, 2] S4096x4096x1
  slices_S4096x4096x5_S4096x4096x1_0_0_3 : S4096x4096x5.Slices ![0, 0, 3] S4096x4096x1
  slices_S4096x4096x5_S4096x4096x1_0_0_4 : S4096x4096x5.Slices ![0, 0, 4] S4096x4096x1
  slices_S4096x4096x2_S4096x4096x1_0_0_0 : S4096x4096x2.Slices ![0, 0, 0] S4096x4096x1
  slices_S4096x4096x2_S4096x4096x1_0_0_1 : S4096x4096x2.Slices ![0, 0, 1] S4096x4096x1
  bcast_S_S4096x4096 : S_.BroadcastsInDim S4096x4096 (![] : Fin 0 → Fin S4096x4096.rank)
  reducesTo_S4096x4096_S4096_d0 : S4096x4096.ReducesTo [0] S4096
  h_S_ : 0 < S_.numel

variable [Facts₀]

class Facts : Prop extends Facts₀ where

variable [Facts]
-- ==== Proof.Spec.lean ====
/-
  The mathematics both programs compute, stated with no program in sight.

  One observation is a target point (tx, ty) and five raw parameters (mx, my, lx, ly, cr) of a bivariate
  normal: means mx, my; standard deviations sx = e^lx, sy = e^ly; correlation c = tanh cr. With
  nx = tx - mx, ny = ty - my,
      z   = (nx / sx)² + (ny / sy)² - 2 c nx ny / (sx sy),
      pdf = exp (-z / (2 (1 - c²))) / (2π · sx sy · √(1 - c²)),
  and the loss of the observation is -log (max pdf ε). The result at person p is the sum of that loss over
  the 4096 frames. The constants 2, 1, 2π and ε are the four f32 words both programs carry; they are never
  evaluated, only compared.

  Two spellings of the same scalar function appear: one negates by `-x` and clips by `max ε pdf`, the other
  negates by `0 - x` and clips by `max pdf ε`. On the extended reals `0 - x = -x` and `max` commutes, so they are
  one function (`lossSub_eq`).

  The frames are summed in 8 consecutive runs of 512: `row s k` is frame `512 s + k`, and the sum over all
  frames is the sum over the runs of the sums inside each run (`sum_rows`).
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Nll

open Idealize.ShloMosaic Idealize.ShloMosaic.ValueIdx

/-- The f32 words of the constants. -/
abbrev w0 : EReal := Ideal.ofBits .f32 0x00000000#32
abbrev w1 : EReal := Ideal.ofBits .f32 0x3F800000#32
abbrev w2 : EReal := Ideal.ofBits .f32 0x40000000#32
abbrev w2pi : EReal := Ideal.ofBits .f32 0x40C90FDB#32
abbrev wEps : EReal := Ideal.ofBits .f32 0x1E3CE508#32

/-- The word of 1.0 is the extended real 1. -/
theorem w1_eq : w1 = 1 := IdealRules.sign_bit.ideal_onePat .f32

/-- The word of 0.0 is the extended real 0. -/
theorem w0_eq : w0 = 0 := Ideal.ofBits_zero_f32

/-- The quadratic form z of one observation. -/
def quad (nx ny sx sy c : EReal) : EReal :=
  Ideal.div nx sx * Ideal.div nx sx + Ideal.div ny sy * Ideal.div ny sy - Ideal.div (w2 * c * nx * ny) (sx * sy)

/-- The loss of one observation, negating by `-x` and clipping by `max ε pdf`. -/
def loss (tx ty mx my lx ly cr : EReal) : EReal :=
  -Ideal.log (max wEps
    (Ideal.div
      (Ideal.exp (Ideal.div
        (-quad (tx - mx) (ty - my) (Ideal.exp lx) (Ideal.exp ly) (Ideal.tanh cr))
        (w2 * (w1 - Ideal.tanh cr * Ideal.tanh cr))))
      (w2pi * (Ideal.exp lx * Ideal.exp ly) * Ideal.sqrt (w1 - Ideal.tanh cr * Ideal.tanh cr))))

/-- The same loss, negating by `0 - x` and clipping by `max pdf ε`. -/
def lossSub (tx ty mx my lx ly cr : EReal) : EReal :=
  w0 - Ideal.log (max
    (Ideal.div
      (Ideal.exp (Ideal.div
        (w0 - quad (tx - mx) (ty - my) (Ideal.exp lx) (Ideal.exp ly) (Ideal.tanh cr))
        (w2 * (w1 - Ideal.tanh cr * Ideal.tanh cr))))
      (w2pi * (Ideal.exp lx * Ideal.exp ly) * Ideal.sqrt (w1 - Ideal.tanh cr * Ideal.tanh cr)))
    wEps)

/-- The two spellings are one function: `0 - x = -x` on the extended reals, and `max` commutes. -/
theorem lossSub_eq (tx ty mx my lx ly cr : EReal) : lossSub tx ty mx my lx ly cr = loss tx ty mx my lx ly cr := by
  unfold lossSub loss
  rw [w0_eq, zero_sub, zero_sub, max_comm]

/-- The arrays' shapes: targets [frame, person, 2], parameters [frame, person, 5]. -/
abbrev STargets : Shape := ⟨3, ![4096, 4096, 2]⟩
abbrev SParams : Shape := ⟨3, ![4096, 4096, 5]⟩

/-- The loss of frame `r`, person `p`. -/
def lossAt (x0 : STargets.Idx → EReal) (x1 : SParams.Idx → EReal) (r p : Fin 4096) : EReal :=
  loss (x0 (ix3 r p (0 : Fin 2))) (x0 (ix3 r p (1 : Fin 2)))
    (x1 (ix3 r p (0 : Fin 5))) (x1 (ix3 r p (1 : Fin 5))) (x1 (ix3 r p (2 : Fin 5))) (x1 (ix3 r p (3 : Fin 5)))
    (x1 (ix3 r p (4 : Fin 5)))

/-- The result: person `j`'s loss summed over the frames. -/
def total (x0 : STargets.Idx → EReal) (x1 : SParams.Idx → EReal) : (⟨1, ![4096]⟩ : Shape).Idx → EReal :=
  fun j => ∑ r : Fin 4096, lossAt x0 x1 r (j 0)

/-- Position `k` of run `s` of 512 consecutive positions: `512 s + k` (for `s < 8`; total in `s` by wrapping). -/
def row (s : ℕ) (k : Fin 512) : Fin 4096 := ⟨(s * 512 + k.val) % 4096, Nat.mod_lt _ (by norm_num)⟩

theorem row_val (s : ℕ) (k : Fin 512) (hs : s < 8) : (row s k).val = s * 512 + k.val := by
  have := k.isLt
  show (s * 512 + k.val) % 4096 = _
  omega

/-- The runs cover the positions exactly once. -/
def rowEquiv : Fin 8 × Fin 512 ≃ Fin 4096 where
  toFun x := row x.1.val x.2
  invFun r := (⟨r.val / 512, by have := r.isLt; omega⟩, ⟨r.val % 512, Nat.mod_lt _ (by norm_num)⟩)
  left_inv x := by
    obtain ⟨s, k⟩ := x
    have hs := s.isLt
    have hk := k.isLt
    have h := row_val s.val k hs
    refine Prod.ext (Fin.ext ?_) (Fin.ext ?_)
    · show (row s.val k).val / 512 = s.val
      omega
    · show (row s.val k).val % 512 = k.val
      omega
  right_inv r := by
    have hr := r.isLt
    apply Fin.ext
    show (r.val / 512 * 512 + r.val % 512) % 4096 = r.val
    omega

/-- A sum over the 4096 positions is the sum over the 8 runs of the sums inside each run. -/
theorem sum_rows (f : Fin 4096 → EReal) :
    ∑ s ∈ Finset.range 8, ∑ k : Fin 512, f (row s k) = ∑ r : Fin 4096, f r := by
  rw [Finset.sum_range (fun s => ∑ k : Fin 512, f (row s k)), ← Equiv.sum_comp rowEquiv f, Fintype.sum_prod_type]
  rfl

end Cert.Nll

end
-- ==== Proof.RefValue.lean ====
/-
  The reference's result, read index by index. Each of its elementwise stages at (frame, person) is the
  same operation of the stages before it, and the seven channels it slices off the two arrays read them at
  (frame, person, channel); so the stage before the reduction is the loss of that observation (`loss_apply`),
  and the reduction over the frame axis from the zero word is the sum of the losses over the frames
  (`result_eq`): the specification's `total`.
-/
import proofs.«430820_j12902081757779_3_alg».proof.Proof.Gen.ReferenceIdeal.Run
import proofs.«430820_j12902081757779_3_alg».proof.Proof.Gen.ReferenceIdeal.Read
import proofs.«430820_j12902081757779_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Nll

/-- Channel 0 of the parameters, sliced off and flattened to [frame, person], reads the array at (frame, person, 0). -/
theorem mux_apply (x1 : (⟨S4096x4096x5, .f32⟩ : BufTy).Contents (Elt Ideal)) (i : S4096x4096.Idx) :
    val_main_v1 (F := Ideal) x1 i = x1 (ix3 (i 0) (i 1) (0 : Fin 5)) := by
  rw [val_main_v1_apply, val_main_v0_apply]
  have h0 : (i 0).val < 4096 := (i 0).isLt
  have h1 : (i 1).val < 4096 := (i 1).isLt
  refine congrArg x1 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 1 of the parameters, sliced off and flattened to [frame, person], reads the array at (frame, person, 1). -/
theorem muy_apply (x1 : (⟨S4096x4096x5, .f32⟩ : BufTy).Contents (Elt Ideal)) (i : S4096x4096.Idx) :
    val_main_v3 (F := Ideal) x1 i = x1 (ix3 (i 0) (i 1) (1 : Fin 5)) := by
  rw [val_main_v3_apply, val_main_v2_apply]
  have h0 : (i 0).val < 4096 := (i 0).isLt
  have h1 : (i 1).val < 4096 := (i 1).isLt
  refine congrArg x1 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 2 of the parameters, sliced off and flattened to [frame, person], reads the array at (frame, person, 2). -/
theorem lsx_apply (x1 : (⟨S4096x4096x5, .f32⟩ : BufTy).Contents (Elt Ideal)) (i : S4096x4096.Idx) :
    val_main_v5 (F := Ideal) x1 i = x1 (ix3 (i 0) (i 1) (2 : Fin 5)) := by
  rw [val_main_v5_apply, val_main_v4_apply]
  have h0 : (i 0).val < 4096 := (i 0).isLt
  have h1 : (i 1).val < 4096 := (i 1).isLt
  refine congrArg x1 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 3 of the parameters, sliced off and flattened to [frame, person], reads the array at (frame, person, 3). -/
theorem lsy_apply (x1 : (⟨S4096x4096x5, .f32⟩ : BufTy).Contents (Elt Ideal)) (i : S4096x4096.Idx) :
    val_main_v8 (F := Ideal) x1 i = x1 (ix3 (i 0) (i 1) (3 : Fin 5)) := by
  rw [val_main_v8_apply, val_main_v7_apply]
  have h0 : (i 0).val < 4096 := (i 0).isLt
  have h1 : (i 1).val < 4096 := (i 1).isLt
  refine congrArg x1 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 4 of the parameters, sliced off and flattened to [frame, person], reads the array at (frame, person, 4). -/
theorem rawc_apply (x1 : (⟨S4096x4096x5, .f32⟩ : BufTy).Contents (Elt Ideal)) (i : S4096x4096.Idx) :
    val_main_v11 (F := Ideal) x1 i = x1 (ix3 (i 0) (i 1) (4 : Fin 5)) := by
  rw [val_main_v11_apply, val_main_v10_apply]
  have h0 : (i 0).val < 4096 := (i 0).isLt
  have h1 : (i 1).val < 4096 := (i 1).isLt
  refine congrArg x1 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 0 of the targets, sliced off and flattened to [frame, person], reads the array at (frame, person, 0). -/
theorem tgx_apply (x0 : (⟨S4096x4096x2, .f32⟩ : BufTy).Contents (Elt Ideal)) (i : S4096x4096.Idx) :
    val_main_v14 (F := Ideal) x0 i = x0 (ix3 (i 0) (i 1) (0 : Fin 2)) := by
  rw [val_main_v14_apply, val_main_v13_apply]
  have h0 : (i 0).val < 4096 := (i 0).isLt
  have h1 : (i 1).val < 4096 := (i 1).isLt
  refine congrArg x0 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Channel 1 of the targets, sliced off and flattened to [frame, person], reads the array at (frame, person, 1). -/
theorem tgy_apply (x0 : (⟨S4096x4096x2, .f32⟩ : BufTy).Contents (Elt Ideal)) (i : S4096x4096.Idx) :
    val_main_v17 (F := Ideal) x0 i = x0 (ix3 (i 0) (i 1) (1 : Fin 2)) := by
  rw [val_main_v17_apply, val_main_v16_apply]
  have h0 : (i 0).val < 4096 := (i 0).isLt
  have h1 : (i 1).val < 4096 := (i 1).isLt
  refine congrArg x0 (funext fun a => Fin.ext ?_)
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- The stage before the reduction, at (frame, person), is the loss of that observation. -/
theorem loss_apply (x0 : (⟨S4096x4096x2, .f32⟩ : BufTy).Contents (Elt Ideal)) (x1 : (⟨S4096x4096x5, .f32⟩ : BufTy).Contents (Elt Ideal))
    (i : S4096x4096.Idx) : val_main_v46 (F := Ideal) x0 x1 i = lossAt x0 x1 (i 0) (i 1) := by
  simp only [val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v15_apply, val_main_v12_apply, val_main_v9_apply, val_main_v6_apply, val_main_call0_v1_apply, val_main_call0_v0_apply, val_main_cst_3_apply, val_main_cst_2_apply, val_main_cst_1_apply, val_main_cst_0_apply, val_main_cst_apply, mux_apply, muy_apply, lsx_apply, lsy_apply, rawc_apply, tgx_apply, tgy_apply]
  rfl

/-- The reference's result is the loss summed over the frames, person by person. -/
theorem result_eq (x0 : (⟨S4096x4096x2, .f32⟩ : BufTy).Contents (Elt Ideal)) (x1 : (⟨S4096x4096x5, .f32⟩ : BufTy).Contents (Elt Ideal)) :
    val_main_v47 (F := Ideal) x0 x1 = total x0 x1 := by
  funext j
  rw [val_main_v47_apply, val_main_cst_4_apply]
  show Ideal.ofBits .f32 0x00000000#32 + _ = _
  rw [Ideal.ofBits_zero_f32, zero_add]
  exact Finset.sum_congr rfl fun k _ => loss_apply x0 x1 (idx_main_v47 j k)

end Cert.ReferenceIdeal.RefValue

end
-- ==== Proof.Piece.lean ====
/-
  What one run of the body leaves behind, case by case, as values. The body keeps a [1,512] accumulator between
  grid points. Write `step x0 x1 acc` for what it stores there from the point's two blocks and the accumulator's
  contents `acc` (the payload of its one update). At the first frame block of a person block it first stores the
  zero row and reads it back, so it leaves `step x0 x1 zero`; at the others it leaves `step x0 x1 acc` over what
  the point before left; and at the last frame block it also copies the accumulator, after the update, into
  the output block.
-/
import proofs.«430820_j12902081757779_3_alg».proof.Proof.Gen.KernelIdeal.Frame
import Idealize.ShloMosaic.Lib.Pipeline.Value
import Idealize.ShloMosaic.Lib.Tactic

noncomputable section

namespace Cert.KernelIdeal.Piece

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's update: what the body stores from the point's two blocks and the accumulator's contents. -/
abbrev step (x0 : Vec F S2x512x512 .f32) (x1 : Vec F S5x512x512 .f32) (acc : Vec F S1x512 .f32) : Vec F S1x512 .f32 :=
  k0_pay1 (k0_pay7 x1) (k0_pay8 x1) (k0_pay9 x0 x1) (k0_pay10 x1) acc

/-- The zero row the reset stores. -/
abbrev zero : Vec F S1x512 .f32 := k0_pay2 (F := F)

/-- A first frame block: the reset, then the update of the zero row it reads back. -/
theorem scratch_A (c : Dev nD) (i : grid0.Coords) (arg2 : Memref sig .tc .vmem S2x512x512 .f32) (harg2 : arg2.IsWhole)
    (arg3 : Memref sig .tc .vmem S5x512x512 .f32) (harg3 : arg3.IsWhole) (arg4 : Memref sig .tc .vmem S1x512 .f32) (harg4 : arg4.IsWhole)
    (arg5 : Memref sig .tc .vmem S1x512 .f32) (harg5 : arg5.IsWhole) (hc0 : cond0_0 i) (hc1 : ¬cond0_1 i)
    (x0 : Vec F S2x512x512 .f32) (x1 : Vec F S5x512x512 .f32) :
    sout0_A_0 c i arg2 harg2 arg3 harg3 arg4 harg4 arg5 harg5 hc0 hc1 x0 x1 = step x0 x1 zero := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x512) hz2, View.readCov_unit_zero (S := S1x512) _ hz2]
  simp only [View.readAt_eq_ld, harg2.read_unread, harg3.read_unread, harg5.read_unread, View.ld_unit_zero (S := S1x512) hz2,
    View.ld_unit_zero (S := S2x512x512) hz3, View.ld_unit_zero (S := S5x512x512) hz3]

/-- A middle frame block: the update of what the point before left. -/
theorem scratch_B (c : Dev nD) (i : grid0.Coords) (arg2 : Memref sig .tc .vmem S2x512x512 .f32) (harg2 : arg2.IsWhole)
    (arg3 : Memref sig .tc .vmem S5x512x512 .f32) (harg3 : arg3.IsWhole) (arg4 : Memref sig .tc .vmem S1x512 .f32) (harg4 : arg4.IsWhole)
    (arg5 : Memref sig .tc .vmem S1x512 .f32) (harg5 : arg5.IsWhole) (hc0 : ¬cond0_0 i) (hc1 : ¬cond0_1 i)
    (x0 : Vec F S2x512x512 .f32) (x1 : Vec F S5x512x512 .f32) (xs0 : Vec F S1x512 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x512) hz2,
    View.ld_unit_zero (S := S2x512x512) hz3, View.ld_unit_zero (S := S5x512x512) hz3]

/-- The last frame block: the same update, -/
theorem scratch_C (c : Dev nD) (i : grid0.Coords) (arg2 : Memref sig .tc .vmem S2x512x512 .f32) (harg2 : arg2.IsWhole)
    (arg3 : Memref sig .tc .vmem S5x512x512 .f32) (harg3 : arg3.IsWhole) (arg4 : Memref sig .tc .vmem S1x512 .f32) (harg4 : arg4.IsWhole)
    (arg5 : Memref sig .tc .vmem S1x512 .f32) (harg5 : arg5.IsWhole) (hc0 : ¬cond0_0 i) (hc1 : cond0_1 i)
    (x0 : Vec F S2x512x512 .f32) (x1 : Vec F S5x512x512 .f32) (xs0 : Vec F S1x512 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x512) hz2,
    View.ld_unit_zero (S := S2x512x512) hz3, View.ld_unit_zero (S := S5x512x512) hz3]

/-- and the output block receives the accumulator as that update left it. -/
theorem out_C (c : Dev nD) (i : grid0.Coords) (arg2 : Memref sig .tc .vmem S2x512x512 .f32) (harg2 : arg2.IsWhole)
    (arg3 : Memref sig .tc .vmem S5x512x512 .f32) (harg3 : arg3.IsWhole) (arg4 : Memref sig .tc .vmem S1x512 .f32) (harg4 : arg4.IsWhole)
    (arg5 : Memref sig .tc .vmem S1x512 .f32) (harg5 : arg5.IsWhole) (hc0 : ¬cond0_0 i) (hc1 : cond0_1 i)
    (x0 : Vec F S2x512x512 .f32) (x1 : Vec F S5x512x512 .f32) (xs0 : Vec F S1x512 .f32) :
    out0_C_2 c i arg2 harg2 arg3 harg3 arg4 harg4 arg5 harg5 hc0 hc1 x0 x1 xs0 = step x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x512) hz2,
    View.ld_unit_zero (S := S2x512x512) hz3, View.ld_unit_zero (S := S5x512x512) hz3, View.readCov_unit_zero (S := S1x512) _ hz2]

end Cert.KernelIdeal.Piece

end
-- ==== Proof.Pay.lean ====
/-
  The body's arithmetic at one entry. A grid point holds a [2,512,512] block of targets and a [5,512,512] block
  of parameters, channel first. The body takes the channels apart, computes the loss of each of the 512 × 512
  observations elementwise (negating by `0 - x`, clipping by `max pdf ε`: the specification's `lossSub`), and
  multiplies a row of ones into the [512,512] result: over the extended reals that product, into the zero
  accumulator, is the column sum, since `1 * x = x`. What it stores in the [1,512] accumulator at lane `q` is
  what it loaded there plus the sum over the block's 512 frames of the loss at (frame, q) (`pay_apply`).
-/
import proofs.«430820_j12902081757779_3_alg».proof.Proof.Gen.KernelIdeal.Skeleton
import proofs.«430820_j12902081757779_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx Cert.Nll

/-! ## The channels of the two blocks -/

/-- Channel 0 of a [5,512,512] parameter block, sliced off and squeezed to [512,512], reads the block at (0, k, q). -/
theorem par0_apply (x1 : Vec Ideal S5x512x512 .f32) (k q : Fin 512) :
    shapeCast S512x512 (extractStridedSlice S1x512x512 ![0, 0, 0] (k0_pay3 x1) slices_S5x512x512_o0_0_0_S1x512x512)
      shapeCasts_S1x512x512_S512x512 (ix2 k q) = x1 (ix3 (0 : Fin 5) k q) := by
  unfold k0_pay3
  rw [shapeCast_1ab_ab_apply, shapeCast_self]
  exact extractStridedSlice_apply _ x1 _ _ _ (fun a => match a with
    | ⟨0, _⟩ => rfl
    | ⟨1, _⟩ => by show k.val = 0 + k.val; omega
    | ⟨2, _⟩ => by show q.val = 0 + q.val; omega)

/-- Channel 1 of a [5,512,512] parameter block, sliced off and squeezed to [512,512], reads the block at (1, k, q). -/
theorem par1_apply (x1 : Vec Ideal S5x512x512 .f32) (k q : Fin 512) :
    shapeCast S512x512 (extractStridedSlice S1x512x512 ![1, 0, 0] (k0_pay3 x1) slices_S5x512x512_o1_0_0_S1x512x512)
      shapeCasts_S1x512x512_S512x512 (ix2 k q) = x1 (ix3 (1 : Fin 5) k q) := by
  unfold k0_pay3
  rw [shapeCast_1ab_ab_apply, shapeCast_self]
  exact extractStridedSlice_apply _ x1 _ _ _ (fun a => match a with
    | ⟨0, _⟩ => rfl
    | ⟨1, _⟩ => by show k.val = 0 + k.val; omega
    | ⟨2, _⟩ => by show q.val = 0 + q.val; omega)

/-- Channel 2 of a [5,512,512] parameter block, sliced off and squeezed to [512,512], reads the block at (2, k, q). -/
theorem par2_apply (x1 : Vec Ideal S5x512x512 .f32) (k q : Fin 512) :
    shapeCast S512x512 (extractStridedSlice S1x512x512 ![2, 0, 0] (k0_pay3 x1) slices_S5x512x512_o2_0_0_S1x512x512)
      shapeCasts_S1x512x512_S512x512 (ix2 k q) = x1 (ix3 (2 : Fin 5) k q) := by
  unfold k0_pay3
  rw [shapeCast_1ab_ab_apply, shapeCast_self]
  exact extractStridedSlice_apply _ x1 _ _ _ (fun a => match a with
    | ⟨0, _⟩ => rfl
    | ⟨1, _⟩ => by show k.val = 0 + k.val; omega
    | ⟨2, _⟩ => by show q.val = 0 + q.val; omega)

/-- Channel 3 of a [5,512,512] parameter block, sliced off and squeezed to [512,512], reads the block at (3, k, q). -/
theorem par3_apply (x1 : Vec Ideal S5x512x512 .f32) (k q : Fin 512) :
    shapeCast S512x512 (extractStridedSlice S1x512x512 ![3, 0, 0] (k0_pay3 x1) slices_S5x512x512_o3_0_0_S1x512x512)
      shapeCasts_S1x512x512_S512x512 (ix2 k q) = x1 (ix3 (3 : Fin 5) k q) := by
  unfold k0_pay3
  rw [shapeCast_1ab_ab_apply, shapeCast_self]
  exact extractStridedSlice_apply _ x1 _ _ _ (fun a => match a with
    | ⟨0, _⟩ => rfl
    | ⟨1, _⟩ => by show k.val = 0 + k.val; omega
    | ⟨2, _⟩ => by show q.val = 0 + q.val; omega)

/-- Channel 4 of a [5,512,512] parameter block, sliced off and squeezed to [512,512], reads the block at (4, k, q). -/
theorem par4_apply (x1 : Vec Ideal S5x512x512 .f32) (k q : Fin 512) :
    shapeCast S512x512 (extractStridedSlice S1x512x512 ![4, 0, 0] (k0_pay3 x1) slices_S5x512x512_o4_0_0_S1x512x512)
      shapeCasts_S1x512x512_S512x512 (ix2 k q) = x1 (ix3 (4 : Fin 5) k q) := by
  unfold k0_pay3
  rw [shapeCast_1ab_ab_apply, shapeCast_self]
  exact extractStridedSlice_apply _ x1 _ _ _ (fun a => match a with
    | ⟨0, _⟩ => rfl
    | ⟨1, _⟩ => by show k.val = 0 + k.val; omega
    | ⟨2, _⟩ => by show q.val = 0 + q.val; omega)

/-- Channel 0 of a [2,512,512] target block, sliced off and squeezed to [512,512], reads the block at (0, k, q). -/
theorem tgt0_apply (x0 : Vec Ideal S2x512x512 .f32) (k q : Fin 512) :
    shapeCast S512x512 (extractStridedSlice S1x512x512 ![0, 0, 0] (shapeCast S2x512x512 x0 shapeCasts_S2x512x512_S2x512x512) slices_S2x512x512_o0_0_0_S1x512x512)
      shapeCasts_S1x512x512_S512x512 (ix2 k q) = x0 (ix3 (0 : Fin 2) k q) := by
  rw [shapeCast_1ab_ab_apply, shapeCast_self]
  exact extractStridedSlice_apply _ x0 _ _ _ (fun a => match a with
    | ⟨0, _⟩ => rfl
    | ⟨1, _⟩ => by show k.val = 0 + k.val; omega
    | ⟨2, _⟩ => by show q.val = 0 + q.val; omega)

/-- Channel 1 of a [2,512,512] target block, sliced off and squeezed to [512,512], reads the block at (1, k, q). -/
theorem tgt1_apply (x0 : Vec Ideal S2x512x512 .f32) (k q : Fin 512) :
    shapeCast S512x512 (extractStridedSlice S1x512x512 ![1, 0, 0] (shapeCast S2x512x512 x0 shapeCasts_S2x512x512_S2x512x512) slices_S2x512x512_o1_0_0_S1x512x512)
      shapeCasts_S1x512x512_S512x512 (ix2 k q) = x0 (ix3 (1 : Fin 2) k q) := by
  rw [shapeCast_1ab_ab_apply, shapeCast_self]
  exact extractStridedSlice_apply _ x0 _ _ _ (fun a => match a with
    | ⟨0, _⟩ => rfl
    | ⟨1, _⟩ => by show k.val = 0 + k.val; omega
    | ⟨2, _⟩ => by show q.val = 0 + q.val; omega)

/-! ## The row of ones times the block: its column sums -/

theorem contr_rank : dot_S1x512_S512x512_S1x512_1_0_0_1_n_n.contr.rank = 1 := by decide
theorem contr_size : dot_S1x512_S512x512_S1x512_1_0_0_1_n_n.contr.size ⟨0, by decide⟩ = 512 := by decide

/-- The right operand's index: its row is the contraction position, -/
theorem rhs_row (j : S1x512.Idx) (k : dot_S1x512_S512x512_S1x512_1_0_0_1_n_n.contr.Idx) :
    (dot_S1x512_S512x512_S1x512_1_0_0_1_n_n.rhsIdx j k 0 : ℕ) = k ⟨0, by decide⟩ := by
  simp [DotDims.rhsIdx, dot_S1x512_S512x512_S1x512_1_0_0_1_n_n]; rfl
/-- its column the output's lane. -/
theorem rhs_col (j : S1x512.Idx) (k : dot_S1x512_S512x512_S1x512_1_0_0_1_n_n.contr.Idx) :
    (dot_S1x512_S512x512_S1x512_1_0_0_1_n_n.rhsIdx j k 1 : ℕ) = j 1 := by
  simp [DotDims.rhsIdx, dot_S1x512_S512x512_S1x512_1_0_0_1_n_n]; rfl

/-- A [1,512] row of ones times a [512,512] block into the zero accumulator is, at lane `q`, the sum of the
    block's column `q`: every product is `1 * v = v`. -/
theorem ones_matmul (v : FVec Ideal S512x512 .f32) (q : Fin 512) :
    matmul dot_S1x512_S512x512_S1x512_1_0_0_1_n_n (some .fp32) (broadcast S1x512 (Scalar.ofBits .f32 0x3F800000#32)) v
        (constant S1x512 .f32 0x00000000#32) (ix2 (0 : Fin 1) q)
      = ∑ k : Fin 512, v (ix2 k q) := by
  simp only [matmul]
  rw [Ideal.matmul_constant_zero_apply]
  refine (Equiv.sum_comp (contrEquiv1 dot_S1x512_S512x512_S1x512_1_0_0_1_n_n 512 contr_rank contr_size).symm _).symm.trans ?_
  refine Finset.sum_congr rfl fun i _ => ?_
  show w1 * v _ = _
  rw [w1_eq, one_mul]
  refine congrArg v (Shape.idx_ext₂ ?_ ?_)
  · exact (rhs_row _ _).trans (contrEquiv1_symm_val dot_S1x512_S512x512_S1x512_1_0_0_1_n_n 512 contr_rank contr_size i)
  · exact rhs_col _ _

/-! ## The elementwise chain is the loss -/

/-- The [512,512] value the body multiplies the ones into, at (k, q): the loss of the observation whose seven numbers
    are the blocks' entries at (channel, k, q). -/
theorem loss_blk (x0 : Vec Ideal S2x512x512 .f32) (x1 : Vec Ideal S5x512x512 .f32) (k q : Fin 512) :
    subf (broadcast S512x512 (Scalar.ofBits (F := Ideal) .f32 0x00000000#32))
      (log (maximumf
        (divf (exp (divf (k0_pay9 x0 x1) (k0_pay10 x1)))
          (mulf (mulf (broadcast S512x512 (Scalar.ofBits (F := Ideal) .f32 0x40C90FDB#32)) (k0_pay7 x1)) (sqrt (k0_pay8 x1))))
        (broadcast S512x512 (Scalar.ofBits (F := Ideal) .f32 0x1E3CE508#32)))) (ix2 k q)
      = lossSub (x0 (ix3 (0 : Fin 2) k q)) (x0 (ix3 (1 : Fin 2) k q))
          (x1 (ix3 (0 : Fin 5) k q)) (x1 (ix3 (1 : Fin 5) k q)) (x1 (ix3 (2 : Fin 5) k q)) (x1 (ix3 (3 : Fin 5) k q))
          (x1 (ix3 (4 : Fin 5) k q)) := by
  rw [← tgt0_apply x0 k q, ← tgt1_apply x0 k q, ← par0_apply x1 k q, ← par1_apply x1 k q, ← par2_apply x1 k q,
    ← par3_apply x1 k q, ← par4_apply x1 k q]
  rfl

/-! ## The store's payload at a lane -/

/-- What the body stores in the accumulator, at lane `q`: what it loaded there plus the block's column sum of
    losses. -/
theorem pay_apply (x0 : Vec Ideal S2x512x512 .f32) (x1 : Vec Ideal S5x512x512 .f32) (acc : Vec Ideal S1x512 .f32) (q : Fin 512) :
    k0_pay1 (F := Ideal) (k0_pay7 x1) (k0_pay8 x1) (k0_pay9 x0 x1) (k0_pay10 x1) acc (ix2 (0 : Fin 1) q)
      = acc (ix2 (0 : Fin 1) q) + ∑ k : Fin 512,
          lossSub (x0 (ix3 (0 : Fin 2) k q)) (x0 (ix3 (1 : Fin 2) k q))
            (x1 (ix3 (0 : Fin 5) k q)) (x1 (ix3 (1 : Fin 5) k q)) (x1 (ix3 (2 : Fin 5) k q)) (x1 (ix3 (3 : Fin 5) k q))
            (x1 (ix3 (4 : Fin 5) k q)) := by
  unfold k0_pay1
  rw [shapeCast_self]
  rw [addf_apply, ones_matmul]
  exact congrArg (acc (ix2 (0 : Fin 1) q) + ·) (Finset.sum_congr rfl fun k _ => loss_blk x0 x1 k q)

/-- The reset's payload is the zero row. -/
theorem zero_apply (q : Fin 512) : k0_pay2 (F := Ideal) (ix2 (0 : Fin 1) q) = 0 := by
  unfold k0_pay2
  rw [shapeCast_self]
  exact w0_eq

end Cert.KernelIdeal.Pay

end
-- ==== Proof.Blocks.lean ====
/-
  Where a grid point's blocks come from. Before the region the host copies the two arrays channel first:
  [frame, person, channel] becomes [channel, frame, person]. The grid has 8 × 8 points; point `t` works on
  frame block `t % 8` of person block `t / 8`, and its input blocks are the [channel, 512, 512] boxes of the
  channel-first copies at frames `512 (t % 8) + k` and persons `512 (t / 8) + q`. So an entry (channel, k, q) of
  a block is the original array's entry at (frame, person, channel) (`tblk_apply`, `pblk_apply`), and the block's
  column sum of losses at lane `q` is the specification's loss summed over that frame block (`blk_sum`).
-/
import proofs.«430820_j12902081757779_3_alg».proof.Proof.Gen.KernelIdeal.Frame
import proofs.«430820_j12902081757779_3_alg».proof.Proof.Spec
import Idealize.ShloMosaic.Lib.ValueIdx
import Idealize.ShloMosaic.Lib.Pipeline.Value
import Idealize.ShloMosaic.Lib.StableHlo.Run
import Idealize.ShloMosaic.Lib.Tactic

noncomputable section

open scoped BigOperators

namespace Cert.KernelIdeal.Blocks

open Cert.KernelIdeal Cert.KernelIdeal.Gen
open Idealize.ShloMosaic Idealize.ShloMosaic.TcCoe Idealize.SL.Sem Idealize.ShloMosaic.ValueIdx Cert.Nll

variable (m : (ℓ : Loc nD τ sig) → Buf (Elt Ideal) ℓ)

/-- The two argument arrays as launched. -/
abbrev targets (c : Dev nD) : FVec Ideal S4096x4096x2 .f32 := m ((c : Thread nD τ).loc main_arg0)
abbrev params (c : Dev nD) : FVec Ideal S4096x4096x5 .f32 := m ((c : Thread nD τ).loc main_arg1)

/-- The region finds the channel-first copy of the targets, -/
theorem targetsT_eq (c : Dev nD) : (V m c main_v0 : FVec Ideal S2x4096x4096 .f32)
    = transpose S2x4096x4096 [2, 0, 1] (targets m c) transposes_S4096x4096x2_S2x4096x4096_2_0_1 := by
  show StableHlo.after hostOps0 (fun b => m (c, b)) (Proc.devRef .tc main_v0) = _
  after_results

/-- and of the parameters. -/
theorem paramsT_eq (c : Dev nD) : (V m c main_v1 : FVec Ideal S5x4096x4096 .f32)
    = transpose S5x4096x4096 [2, 0, 1] (params m c) transposes_S4096x4096x5_S5x4096x4096_2_0_1 := by
  show StableHlo.after hostOps0 (fun b => m (c, b)) (Proc.devRef .tc main_v1) = _
  after_results

/-- The printed index maps, decided over the grid: the inputs' blocks sit at frame block `t % 8`, person block
    `t / 8`; the output's at person block `t / 8`. -/
theorem idx_facts : ∀ t : Fin cfg0.N,
    win0_0.index t (0 : Fin 3) = 0 ∧ win0_0.index t (1 : Fin 3) = t.val % 8 ∧ win0_0.index t (2 : Fin 3) = t.val / 8
    ∧ win0_1.index t (0 : Fin 3) = 0 ∧ win0_1.index t (1 : Fin 3) = t.val % 8 ∧ win0_1.index t (2 : Fin 3) = t.val / 8
    ∧ win0_2.index t (0 : Fin 2) = 0 ∧ win0_2.index t (1 : Fin 2) = t.val / 8 :=
  (by decide +kernel : ∀ t : Fin grid0.N, _)

/-- Point `t`'s blocks, at their literal types. -/
abbrev tblk (c : Dev nD) (t : Fin cfg0.N) : Vec Ideal S2x512x512 .f32 := iblk m c 0 t
abbrev pblk (c : Dev nD) (t : Fin cfg0.N) : Vec Ideal S5x512x512 .f32 := iblk m c 1 t

/-- An entry of the target block is the targets' entry at (frame, person, channel). -/
theorem tblk_apply (c : Dev nD) (t : Fin cfg0.N) (ch : Fin 2) (k q : Fin 512) :
    tblk m c t (ix3 ch k q) = targets m c (ix3 (row (t.val % 8) k) (row (t.val / 8) q) ch) := by
  have hN : t.val < 64 := lt_of_lt_of_eq t.isLt N_0
  obtain ⟨e0, e1, e2, -⟩ := idx_facts t
  have r1 := row_val (t.val % 8) k (by omega)
  have r2 := row_val (t.val / 8) q (by omega)
  show ((cfg0.win 0).blk t).view.read (Elt Ideal) (V m c main_v0) (ix3 ch k q) = _
  rw [View.read_apply, targetsT_eq]
  refine transpose_apply _ _ _ _ (ix3 (row (t.val % 8) k) (row (t.val / 8) q) ch) (fun b => ?_)
  match b with
  | ⟨0, _⟩ => show ch.val = win0_0.index t (0 : Fin 3) * 2 + 1 * ch.val; omega
  | ⟨1, _⟩ => show (row (t.val % 8) k).val = win0_0.index t (1 : Fin 3) * 512 + 1 * k.val; omega
  | ⟨2, _⟩ => show (row (t.val / 8) q).val = win0_0.index t (2 : Fin 3) * 512 + 1 * q.val; omega

/-- An entry of the parameter block is the parameters' entry at (frame, person, channel). -/
theorem pblk_apply (c : Dev nD) (t : Fin cfg0.N) (ch : Fin 5) (k q : Fin 512) :
    pblk m c t (ix3 ch k q) = params m c (ix3 (row (t.val % 8) k) (row (t.val / 8) q) ch) := by
  have hN : t.val < 64 := lt_of_lt_of_eq t.isLt N_0
  obtain ⟨-, -, -, e0, e1, e2, -⟩ := idx_facts t
  have r1 := row_val (t.val % 8) k (by omega)
  have r2 := row_val (t.val / 8) q (by omega)
  show ((cfg0.win 1).blk t).view.read (Elt Ideal) (V m c main_v1) (ix3 ch k q) = _
  rw [View.read_apply, paramsT_eq]
  refine transpose_apply _ _ _ _ (ix3 (row (t.val % 8) k) (row (t.val / 8) q) ch) (fun b => ?_)
  match b with
  | ⟨0, _⟩ => show ch.val = win0_1.index t (0 : Fin 3) * 5 + 1 * ch.val; omega
  | ⟨1, _⟩ => show (row (t.val % 8) k).val = win0_1.index t (1 : Fin 3) * 512 + 1 * k.val; omega
  | ⟨2, _⟩ => show (row (t.val / 8) q).val = win0_1.index t (2 : Fin 3) * 512 + 1 * q.val; omega

/-- The loss summed over frame block `s`, at person `512 p + q`. -/
def colSum (c : Dev nD) (s p : ℕ) (q : Fin 512) : EReal :=
  ∑ k : Fin 512, lossAt (targets m c) (params m c) (row s k) (row p q)

/-- The column sum of losses over point `t`'s blocks is the loss summed over its frame block. -/
theorem blk_sum (c : Dev nD) (t : Fin cfg0.N) (q : Fin 512) :
    (∑ k : Fin 512, lossSub (tblk m c t (ix3 (0 : Fin 2) k q)) (tblk m c t (ix3 (1 : Fin 2) k q))
        (pblk m c t (ix3 (0 : Fin 5) k q)) (pblk m c t (ix3 (1 : Fin 5) k q)) (pblk m c t (ix3 (2 : Fin 5) k q))
        (pblk m c t (ix3 (3 : Fin 5) k q)) (pblk m c t (ix3 (4 : Fin 5) k q)))
      = colSum m c (t.val % 8) (t.val / 8) q := by
  refine Finset.sum_congr rfl fun k _ => ?_
  rw [lossSub_eq, tblk_apply, tblk_apply, pblk_apply, pblk_apply, pblk_apply, pblk_apply, pblk_apply]
  rfl

end Cert.KernelIdeal.Blocks

end
-- ==== Proof.Acc.lean ====
/-
  The accumulator across the grid. Points run person block by person block, and inside one the 8 frame blocks in
  order. One update adds the point's frame-block sum of losses to each lane (`step_apply`); the first frame block
  starts from the zero row. So after point `n` the accumulator's lane `q` holds the loss of person
  `512 (n / 8) + q` summed over frame blocks `0 … n % 8` (`acc_eq`, by induction on the point), and at the last
  frame block, where the body copies the accumulator out, the output block holds the sum over all 8 (`out_eq`).
-/
import proofs.«430820_j12902081757779_3_alg».proof.Proof.Piece
import proofs.«430820_j12902081757779_3_alg».proof.Proof.Pay
import proofs.«430820_j12902081757779_3_alg».proof.Proof.Blocks

noncomputable section

open scoped BigOperators

namespace Cert.KernelIdeal.Acc

open Cert.KernelIdeal Cert.KernelIdeal.Gen Cert.KernelIdeal.Piece Cert.KernelIdeal.Pay Cert.KernelIdeal.Blocks
open Idealize.ShloMosaic Idealize.ShloMosaic.TcCoe Idealize.SL.Sem Idealize.ShloMosaic.ValueIdx Cert.Nll

variable (m : (ℓ : Loc nD τ sig) → Buf (Elt Ideal) ℓ)

/-- One update at point `n` adds, lane by lane, the loss summed over the point's frame block. -/
theorem step_apply (c : Dev nD) (n : ℕ) (hn : n < cfg0.N) (acc : Vec Ideal S1x512 .f32) (q : Fin 512) :
    step (tblk m c ⟨n, hn⟩) (pblk m c ⟨n, hn⟩) acc (ix2 (0 : Fin 1) q)
      = acc (ix2 (0 : Fin 1) q) + colSum m c (n % 8) (n / 8) q :=
  (pay_apply (tblk m c ⟨n, hn⟩) (pblk m c ⟨n, hn⟩) acc q).trans (congrArg (acc (ix2 (0 : Fin 1) q) + ·) (blk_sum m c ⟨n, hn⟩ q))

/-- The reset's row is zero at every lane. -/
theorem zero_at (q : Fin 512) : (zero : Vec Ideal S1x512 .f32) (ix2 (0 : Fin 1) q) = 0 := zero_apply q

/-- After point `n` the accumulator holds, at lane `q`, the loss summed over frame blocks `0 … n % 8`. -/
theorem acc_eq (c : Dev nD) (n : ℕ) : ∀ (hn : n < cfg0.N) (q : Fin 512),
    (outsAt0 m c n hn).2 (ix2 (0 : Fin 1) q) = ∑ s ∈ Finset.range (n % 8 + 1), colSum m c s (n / 8) q := by
  induction n using Nat.strong_induction_on with
  | _ n ih =>
    intro hn q
    have hN : n < 64 := lt_of_lt_of_eq hn N_0
    by_cases h0 : n % 8 = 0
    · have h1 : ¬n % 8 = 7 := by omega
      rw [outsAt0_A m c ⟨n, hn⟩ h0 h1]
      dsimp only
      refine (congrFun (scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h))
        (tblk m c ⟨n, hn⟩) (pblk m c ⟨n, hn⟩)) (ix2 (0 : Fin 1) q)).trans ?_
      rw [step_apply, zero_at, zero_add, h0, Finset.sum_range_one]
    · have ihn := ih (n - 1) (by omega) (Nat.lt_of_le_of_lt (Nat.sub_le _ _) hn) q
      have e1 : (n - 1) % 8 + 1 = n % 8 := by omega
      have e2 : (n - 1) / 8 = n / 8 := by omega
      by_cases h1 : n % 8 = 7
      · rw [outsAt0_C m c ⟨n, hn⟩ h0 h1]
        dsimp only
        refine (congrFun (scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1)
          (tblk m c ⟨n, hn⟩) (pblk m c ⟨n, hn⟩) (outsAt0 m c (n - 1) (Nat.lt_of_le_of_lt (Nat.sub_le _ _) hn)).2) (ix2 (0 : Fin 1) q)).trans ?_
        rw [step_apply, ihn, e1, e2, Finset.sum_range_succ]
      · rw [outsAt0_B m c ⟨n, hn⟩ h0 h1]
        dsimp only
        refine (congrFun (scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h))
          (tblk m c ⟨n, hn⟩) (pblk m c ⟨n, hn⟩) (outsAt0 m c (n - 1) (Nat.lt_of_le_of_lt (Nat.sub_le _ _) hn)).2) (ix2 (0 : Fin 1) q)).trans ?_
        rw [step_apply, ihn, e1, e2, Finset.sum_range_succ]

/-- At a last frame block the output block holds, at lane `q`, the loss summed over all 8 frame blocks. -/
theorem out_eq (c : Dev nD) (n : ℕ) (hn : n < cfg0.N) (h7 : n % 8 = 7) (q : Fin 512) :
    (outsAt0 m c n hn).1 (ix2 (0 : Fin 1) q) = ∑ s ∈ Finset.range 8, colSum m c s (n / 8) q := by
  have hN : n < 64 := lt_of_lt_of_eq hn N_0
  have h0 : ¬n % 8 = 0 := by omega
  have ihn := acc_eq m c (n - 1) (Nat.lt_of_le_of_lt (Nat.sub_le _ _) hn) q
  have e1 : (n - 1) % 8 + 1 = 7 := by omega
  have e2 : (n - 1) / 8 = n / 8 := by omega
  rw [outsAt0_C m c ⟨n, hn⟩ h0 h7]
  dsimp only
  refine (congrFun (out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h7)
    (tblk m c ⟨n, hn⟩) (pblk m c ⟨n, hn⟩) (outsAt0 m c (n - 1) (Nat.lt_of_le_of_lt (Nat.sub_le _ _) hn)).2) (ix2 (0 : Fin 1) q)).trans ?_
  rw [step_apply, ihn, e1, e2, h7, ← Finset.sum_range_succ]

end Cert.KernelIdeal.Acc

end
-- ==== Proof.Final.lean ====
/-
  From the output blocks to the result. The region's output is a [1,4096] row, one [1,512] block per person
  block, written back once, at the person block's last frame block, with the sum over all 8 frame blocks
  (the accumulation's `out_eq`). The 8 written blocks tile the row, so the row ends holding, at person `p`, the
  loss of `p` summed frame block by frame block (`rowTotal`, `final`) — which is the sum over all 4096 frames. After
  the region the host drops the leading unit axis, and the result is the specification's `total` (`tail_eq`);
  the argument arrays are as launched (`run`).
-/
import proofs.«430820_j12902081757779_3_alg».proof.Proof.Acc
import Idealize.ShloMosaic.Lib.ValueLayout

noncomputable section

open scoped BigOperators

namespace Cert.KernelIdeal.Final

open Cert.KernelIdeal Cert.KernelIdeal.Gen Cert.KernelIdeal.Blocks Cert.KernelIdeal.Acc
open Idealize.ShloMosaic Idealize.ShloMosaic.TcCoe Idealize.SL.Sem Idealize.ShloMosaic.ValueIdx Cert.Nll
open Idealize.ShloMosaic.Pipeline (Dat)

variable (m : (ℓ : Loc nD τ sig) → Buf (Elt Ideal) ℓ) (ρ : Dev nD → PrngReg)

/-- The region's output row: at person `p` the loss summed frame block by frame block. -/
def rowTotal (c : Dev nD) : FVec Ideal S1x4096 .f32 :=
  fun i => ∑ s ∈ Finset.range 8, ∑ k : Fin 512, lossAt (targets m c) (params m c) (row s k) (i 1)

/-- It is the sum over all the frames. -/
theorem rowTotal_apply (c : Dev nD) (p : Fin 4096) :
    rowTotal m c (ix2 (0 : Fin 1) p) = total (targets m c) (params m c) (ix1 p) :=
  sum_rows fun r => lossAt (targets m c) (params m c) r p

/-- What a last frame block's point writes back is its block of the row. -/
theorem flushed_eq (c : Dev nD) (t : Fin cfg0.N) (h7 : t.val % 8 = 7) :
    (dats m 0 c).flushed 2 t = ((cfg0.win 2).blk t).view.read (Elt Ideal) (rowTotal m c) := by
  have hN : t.val < 64 := lt_of_lt_of_eq t.isLt N_0
  obtain ⟨-, -, -, -, -, -, e0, e1⟩ := idx_facts t
  show (cfg0.win 2).cut (grid0.coords t) ((dats m 0 c).after 2 t) = _
  rw [after0_2]
  funext y
  have hy0 : (y 0).val < 1 := (y 0).isLt
  have hy1 : (y 1).val < 512 := (y 1).isLt
  have r1 := row_val (t.val / 8) ⟨(y 1).val, hy1⟩ (by omega)
  have hq : (⟨(y 1).val, hy1⟩ : Fin 512).val = (y 1).val := rfl
  rw [View.read_apply]
  show (outsAt0 m c t.val t.isLt).1 y = _
  have ey : y = ix2 (0 : Fin 1) ⟨(y 1).val, hy1⟩ := by
    funext a; apply Fin.ext
    match a with
    | ⟨0, _⟩ => show (y 0).val = 0; omega
    | ⟨1, _⟩ => rfl
  refine (congrArg _ ey).trans ((out_eq m c t.val t.isLt h7 ⟨(y 1).val, hy1⟩).trans ?_)
  show rowTotal m c (ix2 (0 : Fin 1) (row (t.val / 8) ⟨(y 1).val, hy1⟩)) = _
  refine congrArg (rowTotal m c) (funext fun a => Fin.ext ?_)
  match a with
  | ⟨0, _⟩ => show 0 = win0_2.index t (0 : Fin 2) * 1 + 1 * (y 0).val; omega
  | ⟨1, _⟩ => show (row (t.val / 8) ⟨(y 1).val, hy1⟩).val = win0_2.index t (1 : Fin 2) * 512 + 1 * (y 1).val; omega

/-- An index of the row is in point `t`'s block iff each coordinate is in the block's range on its axis. -/
theorem mem_blk (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v2).slice (win0_2.rect t)).set ↔ _
  rw [View.set_slice_whole, Rect.mem_set_unit]
  exact Iff.rfl

/-- The written blocks tile the row: person `p` lies in the block written at the last frame block of person
    block `p / 512`. -/
theorem cover (i : S1x4096.Idx) :
    ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 64 := N_0
  let t : Fin cfg0.N := ⟨(i 1).val / 512 * 8 + 7, by rw [hN]; omega⟩
  have ht : t.val = (i 1).val / 512 * 8 + 7 := rfl
  obtain ⟨-, -, -, -, -, -, e0, e1⟩ := idx_facts t
  refine ⟨t, (flush0_2 t).mpr (by omega), ?_⟩
  rw [mem_blk]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 512 ≤ (i 1).val ∧ (i 1).val < win0_2.index t (1 : Fin 2) * 512 + 512; omega

/-- So the row ends holding `rowTotal`. -/
theorem final (c : Dev nD) : (dats m 0 c).arrAt 2 cfg0.N = rowTotal m c :=
  (dats m 0 c).arrAt_eq_of_cover 2 (rowTotal m c) (fun t hf => flushed_eq m c t ((flush0_2 t).mp hf)) cover

/-- The host's reshape of the row after the region: the result is the loss summed over the frames. -/
theorem tail_eq (c : Dev nD) :
    Pipeline.afterTail₀ cfgs (dats m) 0 (V0 m) [hostOps1] c main_v3 = total (targets m c) (params m c) := by
  unfold Pipeline.afterTail₀
  show StableHlo.after hostOps1 _ (Proc.devRef .tc main_v3) = _
  after_results
  funext j
  show shapeCast S4096 (Pipeline.withArrays spec0 c (V0 m c) (fun w => (dats m 0 c).arrAt w cfg0.N)
    (Proc.devRef .tc (Pipeline.arrRef spec0 2))) shapeCasts_S1x4096_S4096 j = _
  rw [(Pipeline.withArrays_arr spec0 launch0.win.arr_inj c _ _ 2).trans (final m c)]
  obtain ⟨p, rfl⟩ : ∃ p : Fin 4096, j = ix1 p := ⟨j 0, eq_ix1 j⟩
  rw [shapeCast_1a_a_apply]
  exact rowTotal_apply m c p

/-- The kernel's run, read: the result at the loss summed over the frames, the arguments as launched. -/
theorem run : θ_run defs (onTc (τ := τ) (main (F := Ideal))) ⟨m, fun _ => 0, ρ⟩ fun r => ∀ c : Dev nD,
      r.2.mem ((c.tc : Thread nD τ).loc main_v3) = total (targets m c) (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The bivariate-normal negative log-likelihood, summed over the frames, person by person.

  Both programs take targets [4096 frames, 4096 persons, 2] and parameters [4096, 4096, 5] and return, for each
  person, the sum over the frames of the loss -log (max pdf ε) of that frame's observation (the specification's
  `total`; the third argument is read by neither). The reference computes the loss elementwise over the whole
  [frame, person] plane and reduces over the frame axis. The kernel first copies both arrays channel first, then
  walks an 8 × 8 grid of [512 frames, 512 persons] blocks: at each it computes the same elementwise loss, sums
  the block over its 512 frames by multiplying a row of ones into it, and adds that row into an accumulator
  that is zeroed at a person block's first frame block and copied out at its last; the host then drops the
  result's unit axis.

  Over the extended reals the two agree on every input, with no use of the precondition: the elementwise chains
  are the same operations on the same constants' words (the kernel negates by `0 - x` and clips by `max pdf ε`
  where the reference has `-x` and `max ε pdf`: one function); a product with a row of ones into a zero accumulator
  is the plain sum since `1 * x = x`; and a sum over 4096 frames taken as 8 runs of 512, run after run, is the same
  sum, addition being commutative and associative.

  The three programs' frames: the two kernels' are the generated frame proofs; the reference's is its generated
  run with the result dropped. The idealization rewrote nothing, so its preservation claim is `True`.
-/
import proofs.«430820_j12902081757779_3_alg».proof.Defs
import proofs.«430820_j12902081757779_3_alg».proof.Proof.Gen.Kernel
import proofs.«430820_j12902081757779_3_alg».proof.Proof.Gen.Kernel.Frame
import proofs.«430820_j12902081757779_3_alg».proof.Proof.Gen.KernelIdeal
import proofs.«430820_j12902081757779_3_alg».proof.Proof.Gen.KernelIdeal.Frame
import proofs.«430820_j12902081757779_3_alg».proof.Proof.Gen.ReferenceIdeal
import proofs.«430820_j12902081757779_3_alg».proof.Proof.Gen.ReferenceIdeal.Run
import proofs.«430820_j12902081757779_3_alg».proof.Proof.Gen.ReferenceIdeal.Read
import proofs.«430820_j12902081757779_3_alg».proof.Proof.Gen.Pre_finite_inputs
import proofs.«430820_j12902081757779_3_alg».proof.Proof.RefValue
import proofs.«430820_j12902081757779_3_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, person by person, at the loss summed over the frames of the kernel's argument arrays: the
    kernel's by its accumulation over the grid, the reference's by its reduction, of arguments that agree. -/
theorem algebraic : Cert.algebraic_KernelIdeal_ReferenceIdeal := by
  intro m ρ m' ρ' _ hagree
  refine ⟨fun c => Cert.Nll.total (Cert.KernelIdeal.Blocks.targets m c) (Cert.KernelIdeal.Blocks.params m c),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v47_eq, Cert.ReferenceIdeal.RefValue.result_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
